-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8 : Shape := ⟨1, ![8]⟩
abbrev S8x4096 : Shape := ⟨2, ![8, 4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S8x4096 : S_.BroadcastsInDim S8x4096 (![] : Fin 0 → Fin S8x4096.rank)
  reducesTo_S8x4096_S_d0_1 : S8x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4x2048x1024 .f32) (main_arg1 : FVec F S8 .f32) (main_arg2 : FVec F S8x4096 .f32) (main_arg3 : FVec F S4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4x2048x1024 : Shape := ⟨3, ![4, 2048, 1024]⟩
abbrev S8 : Shape := ⟨1, ![8]⟩
abbrev S8x4096 : Shape := ⟨2, ![8, 4096]⟩
abbrev S4096x1024 : Shape := ⟨2, ![4096, 1024]⟩
abbrev S8192x1024 : Shape := ⟨2, ![8192, 1024]⟩
abbrev S1x8 : Shape := ⟨2, ![1, 8]⟩
abbrev S512x1024 : Shape := ⟨2, ![512, 1024]⟩
abbrev S512x8 : Shape := ⟨2, ![512, 8]⟩
abbrev S512x4096 : Shape := ⟨2, ![512, 4096]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S8x4096, .f32⟩
  | .hbm, ⟨3, _⟩ => ⟨S4096x1024, .f32⟩
  | .hbm, ⟨4, _⟩ => ⟨S8192x1024, .f32⟩
  | .hbm, ⟨5, _⟩ => ⟨S1x8, .f32⟩
  | .hbm, ⟨6, _⟩ => ⟨S8x4096, .bf16⟩
  | .hbm, ⟨7, _⟩ => ⟨S4096x1024, .bf16⟩
  | .hbm, ⟨8, _⟩ => ⟨S8192x1024, .f32⟩
  | .hbm, ⟨9, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1x8, .f32⟩
  | .local _ .vmem, ⟨3, _⟩ => ⟨S8x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x1024_S8192x1024 : S4x2048x1024.ShapeCasts S8192x1024
  shapeCasts_S8_S1x8 : S8.ShapeCasts S1x8
  bitsLt_bf16_f32 : FTy.bits .bf16 < FTy.bits .f32
  inb_S512x1024_S512x8_0_0 : ∀ a, (![0, 0] : Fin 2 → Nat) a + S512x8.size a ≤ S512x1024.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  shapeCasts_S8192x1024_S4x2048x1024 : S8192x1024.ShapeCasts S4x2048x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8 : Shape := ⟨1, ![8]⟩
abbrev S8x4096 : Shape := ⟨2, ![8, 4096]⟩
abbrev S4096x1024 : Shape := ⟨2, ![4096, 1024]⟩
abbrev S4x2048x8 : Shape := ⟨3, ![4, 2048, 8]⟩
abbrev S1x1x8 : Shape := ⟨3, ![1, 1, 8]⟩
abbrev S4x2048x4096 : Shape := ⟨3, ![4, 2048, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S8x4096, .f32⟩
  | .hbm, ⟨3, _⟩ => ⟨S4096x1024, .f32⟩
  | .hbm, ⟨4, _⟩ => ⟨S4x2048x8, .f32⟩
  | .hbm, ⟨5, _⟩ => ⟨S1x1x8, .f32⟩
  | .hbm, ⟨6, _⟩ => ⟨S4x2048x8, .f32⟩
  | .hbm, ⟨7, _⟩ => ⟨S4x2048x8, .f32⟩
  | .hbm, ⟨8, _⟩ => ⟨S4x2048x8, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  slices_S4x2048x1024_S4x2048x8_0_0_0 : S4x2048x1024.Slices ![0, 0, 0] S4x2048x8
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S_S4x2048x4096 : S_.BroadcastsInDim S4x2048x4096 (![] : Fin 0 → Fin S4x2048x4096.rank)
  dot_S4x2048x8_S8x4096_S4x2048x4096_2_0_01_1_n_n_wf : DotDims.WF S4x2048x8 S8x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x8_S8x4096_S4x2048x4096_2_0_01_1_n_n : DotDims S4x2048x8 S8x4096 S4x2048x4096 where
  lhsContracting := [2]
  rhsContracting := [0]
  lhsNonContracting := [0, 1]
  rhsNonContracting := [1]
  lhsBatch := []
  rhsBatch := []
  wf := dot_S4x2048x8_S8x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Spec.lean ====
/-
  The function both programs compute, stated once over the four argument arrays and read index by index on the
  extended reals.

  A token is a pair (b, s) of batch and position. Of its 1024 input features only the first eight are used: each is
  shifted by the matching phase of `θ` and sent through the cosine. The eight cosines are mixed by the first weight
  matrix into 4096 hidden features, each clipped below at zero, and the hidden features are mixed by the second weight
  matrix into the 1024 output features:

      out x θ w₁ w₂ (b, s, d) = ∑ f, max (∑ k, cos (x (b, s, k) + θ k) · w₁ (k, f)) 0 · w₂ (f, d).

  The zero the hidden features are clipped at is kept as the bit pattern both programs print for it, so that it is
  never evaluated. Also here: the row of the flattened token axis a token sits in, and the token of a row.
-/
import Idealize.ShloMosaic.PureOps.Ideal
import Idealize.ShloMosaic.Lib.ValueIdx

noncomputable section

namespace Cert.Spec

open Idealize.ShloMosaic Idealize.ShloMosaic.ValueIdx
open scoped BigOperators

/-- The input: batch × position × feature. -/
abbrev Tokens : Shape := ⟨3, ![4, 2048, 1024]⟩
/-- The eight phases. -/
abbrev Phases : Shape := ⟨1, ![8]⟩
/-- The first layer's weights: wire × hidden feature. -/
abbrev Mix1 : Shape := ⟨2, ![8, 4096]⟩
/-- The second layer's weights: hidden feature × output feature. -/
abbrev Mix2 : Shape := ⟨2, ![4096, 1024]⟩
/-- The tokens laid out as rows: (batch · 2048 + position) × feature. -/
abbrev Rows : Shape := ⟨2, ![8192, 1024]⟩

/-- One of the first eight features, as a feature index. -/
abbrev wire (k : Fin 8) : Fin 1024 := ⟨k.val, by have := k.isLt; omega⟩

/-- Hidden feature `f` of token (b, s): the eight cosines `cos (x (b, s, k) + θ k)` mixed by column `f` of the first
    weight matrix, clipped below at zero. -/
def hidden (x : FVec Ideal Tokens .f32) (θ : FVec Ideal Phases .f32) (w1 : FVec Ideal Mix1 .f32)
    (b : Fin 4) (s : Fin 2048) (f : Fin 4096) : EReal :=
  max (∑ k : Fin 8, Ideal.cos (x (ix3 b s (wire k)) + θ (ix1 k)) * w1 (ix2 k f)) (Ideal.ofBits .f32 0x00000000#32)

/-- Output feature `d` of token (b, s): the hidden features mixed by column `d` of the second weight matrix. -/
def out (x : FVec Ideal Tokens .f32) (θ : FVec Ideal Phases .f32) (w1 : FVec Ideal Mix1 .f32) (w2 : FVec Ideal Mix2 .f32) :
    FVec Ideal Tokens .f32 :=
  fun i => ∑ f : Fin 4096, hidden x θ w1 (i 0) (i 1) f * w2 (ix2 f (i 2))

/-- The batch of row `r` of the flattened token axis. -/
abbrev rowBatch (r : Fin 8192) : Fin 4 := ⟨r.val / 2048, by have := r.isLt; omega⟩
/-- The position of row `r` of the flattened token axis. -/
abbrev rowPos (r : Fin 8192) : Fin 2048 := ⟨r.val % 2048, Nat.mod_lt _ (by decide)⟩

/-- The same function over the flattened token axis: row `r` is token (r / 2048, r % 2048). -/
def outRows (x : FVec Ideal Tokens .f32) (θ : FVec Ideal Phases .f32) (w1 : FVec Ideal Mix1 .f32) (w2 : FVec Ideal Mix2 .f32) :
    FVec Ideal Rows .f32 :=
  fun j => ∑ f : Fin 4096, hidden x θ w1 (rowBatch (j 0)) (rowPos (j 0)) f * w2 (ix2 f (j 1))

/-- Row b · 2048 + s is token (b, s). -/
theorem outRows_apply (x : FVec Ideal Tokens .f32) (θ : FVec Ideal Phases .f32) (w1 : FVec Ideal Mix1 .f32) (w2 : FVec Ideal Mix2 .f32)
    (i : Tokens.Idx) (r : Fin 8192) (hr : r.val = (i 0).val * 2048 + (i 1).val) :
    outRows x θ w1 w2 (ix2 r (i 2)) = out x θ w1 w2 i := by
  have h1 : (i 1).val < 2048 := (i 1).isLt
  have eb : rowBatch r = i 0 := Fin.ext (by show r.val / 2048 = (i 0).val; omega)
  have es : rowPos r = i 1 := Fin.ext (by show r.val % 2048 = (i 1).val; omega)
  show (∑ f : Fin 4096, hidden x θ w1 (rowBatch r) (rowPos r) f * w2 (ix2 f (i 2))) = _
  rw [eb, es]
  rfl

end Cert.Spec

end
-- ==== Proof.RefValue.lean ====
/-
  The reference computes the specification.

  Its last stage is a product with the second weight matrix, contracted over the 4096 hidden features; the stage before
  clips at zero; the one before that is a product with the first weight matrix, contracted over the eight wires; and the
  first stages cut the first eight features out of each token, add the phases (broadcast over batch and position) and
  take the cosine. Read at an output index (b, s, d), each stage's index map sends (b, s) through unchanged, so the
  composed term is the specification's sum of sums, term by term.
-/
import proofs.«177925_j65481071400550_1_alg».proof.Proof.Gen.ReferenceIdeal.Read
import proofs.«177925_j65481071400550_1_alg».proof.Proof.Spec

noncomputable section

namespace Cert.ReferenceIdeal.RefValue

open Cert.ReferenceIdeal Cert.ReferenceIdeal.Read Idealize.ShloMosaic Idealize.ShloMosaic.ValueIdx
open scoped BigOperators

/-- The cosine stage at wire `k` of the token of output index `i`: the token's feature `k` plus phase `k`, through the cosine. -/
theorem cosine_at (x0 : (⟨S4x2048x1024, .f32⟩ : BufTy).Contents (Elt Ideal)) (x1 : (⟨S8, .f32⟩ : BufTy).Contents (Elt Ideal))
    (i : S4x2048x1024.Idx) (f : Fin 4096) (k : Fin 8) :
    val_main_v4 (F := Ideal) x0 x1 (lidx_main_v5 (lidx_main_v7 i f) k)
      = Ideal.cos (x0 (ix3 (i 0) (i 1) (Cert.Spec.wire k)) + x1 (ix1 k)) := by
  rw [val_main_v4_apply, val_main_v3_apply, val_main_v0_apply, val_main_v2_apply, val_main_v1_apply]
  have e0 : idx_main_v0 (lidx_main_v5 (lidx_main_v7 i f) k) = ix3 (i 0) (i 1) (Cert.Spec.wire k) :=
    funext fun a => Fin.ext (by match a with | ⟨0, _⟩ => rfl | ⟨1, _⟩ => rfl | ⟨2, _⟩ => rfl)
  have e1 : idx_main_v1 (idx_main_v2 (lidx_main_v5 (lidx_main_v7 i f) k)) = ix1 k :=
    funext fun a => Fin.ext (by match a with | ⟨0, _⟩ => rfl)
  rw [e0, e1]
  rfl

/-- The reference's result, as a function of its four arguments, is the specification. -/
theorem result_eq (x0 : (⟨S4x2048x1024, .f32⟩ : BufTy).Contents (Elt Ideal)) (x1 : (⟨S8, .f32⟩ : BufTy).Contents (Elt Ideal))
    (x2 : (⟨S8x4096, .f32⟩ : BufTy).Contents (Elt Ideal)) (x3 : (⟨S4096x1024, .f32⟩ : BufTy).Contents (Elt Ideal)) :
    val_main_v7 (F := Ideal) x0 x1 x2 x3 = Cert.Spec.out x0 x1 x2 x3 := by
  funext i
  rw [val_main_v7_apply]
  show _ = ∑ f : Fin 4096, Cert.Spec.hidden x0 x1 x2 (i 0) (i 1) f * x3 (ix2 f (i 2))
  refine Finset.sum_congr rfl fun f _ => ?_
  have er : ridx_main_v7 i f = ix2 f (i 2) :=
    funext fun a => Fin.ext (by match a with | ⟨0, _⟩ => rfl | ⟨1, _⟩ => rfl)
  rw [er, val_main_v6_apply, val_main_v5_apply, val_main_call0_v0_apply, val_main_call0_cst_apply]
  have es : (∑ k : Fin 8, val_main_v4 (F := Ideal) x0 x1 (lidx_main_v5 (lidx_main_v7 i f) k) * x2 (ridx_main_v5 (lidx_main_v7 i f) k))
      = ∑ k : Fin 8, Ideal.cos (x0 (ix3 (i 0) (i 1) (Cert.Spec.wire k)) + x1 (ix1 k)) * x2 (ix2 k f) :=
    Finset.sum_congr rfl fun k _ => by
      have e2 : ridx_main_v5 (lidx_main_v7 i f) k = ix2 k f :=
        funext fun a => Fin.ext (by match a with | ⟨0, _⟩ => rfl | ⟨1, _⟩ => rfl)
      rw [cosine_at, e2]
  rw [es]
  rfl

end Cert.ReferenceIdeal.RefValue

end
-- ==== Proof.KernelPayload.lean ====
/-
  What the kernel body stores for one block of 512 token rows, read at an entry of the block.

  The body loads the first eight features of its 512 rows, the phases, and both weight matrices whole; it adds the
  phases to every row, takes the cosine, multiplies by the first weight matrix into a zero accumulator, clips at zero and
  multiplies by the second weight matrix into a zero accumulator. On the extended reals the two narrowings to the
  shorter float format are the identity and a matrix product into zero is the plain sum over the contracted axis, so
  entry (p, n) of what it stores is

      ∑ f, max (∑ k, cos (rows (p, k) + phases (0, k)) · w₁ (k, f)) 0 · w₂ (f, n).
-/
import proofs.«177925_j65481071400550_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The two matrix products: which operand entry each contraction step reads -/

theorem lhs_mm1_0 (i : S512x4096.Idx) (q : dot_S512x8_S8x4096_S512x4096_1_0_0_1_n_n.contr.Idx) :
    (dot_S512x8_S8x4096_S512x4096_1_0_0_1_n_n.lhsIdx i q 0).val = (i 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl
theorem lhs_mm1_1 (i : S512x4096.Idx) (q : dot_S512x8_S8x4096_S512x4096_1_0_0_1_n_n.contr.Idx) :
    (dot_S512x8_S8x4096_S512x4096_1_0_0_1_n_n.lhsIdx i q 1).val = (q ⟨0, by decide⟩).val :=
  dot_S512x8_S8x4096_S512x4096_1_0_0_1_n_n.lhsIdx_val_of_single rfl i q
theorem rhs_mm1_0 (i : S512x4096.Idx) (q : dot_S512x8_S8x4096_S512x4096_1_0_0_1_n_n.contr.Idx) :
    (dot_S512x8_S8x4096_S512x4096_1_0_0_1_n_n.rhsIdx i q 0).val = (q ⟨0, by decide⟩).val :=
  dot_S512x8_S8x4096_S512x4096_1_0_0_1_n_n.rhsIdx_val_of_single rfl i q
theorem rhs_mm1_1 (i : S512x4096.Idx) (q : dot_S512x8_S8x4096_S512x4096_1_0_0_1_n_n.contr.Idx) :
    (dot_S512x8_S8x4096_S512x4096_1_0_0_1_n_n.rhsIdx i q 1).val = (i 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

theorem lhs_mm2_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_mm2_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_mm2_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_mm2_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The first product into a zero accumulator: entry (p, f) is the sum over the eight wires. -/
theorem mm1_apply (a : FVec Ideal S512x8 .bf16) (b : FVec Ideal S8x4096 .bf16) (p : Fin 512) (n : Fin 4096) :
    matmul dot_S512x8_S8x4096_S512x4096_1_0_0_1_n_n none a b (constant S512x4096 .f32 0x00000000#32) (ix2 p n)
      = ∑ k : Fin 8, a (ix2 p k) * b (ix2 k n) := by
  simp only [matmul]
  rw [Ideal.matmul_constant_zero_apply, ← Equiv.sum_comp (contrEquiv1 dot_S512x8_S8x4096_S512x4096_1_0_0_1_n_n 8 rfl rfl).symm]
  refine Finset.sum_congr rfl fun k _ => ?_
  have hk := contrEquiv1_symm_val dot_S512x8_S8x4096_S512x4096_1_0_0_1_n_n 8 rfl rfl k
  have el : dot_S512x8_S8x4096_S512x4096_1_0_0_1_n_n.lhsIdx (ix2 p n) ((contrEquiv1 dot_S512x8_S8x4096_S512x4096_1_0_0_1_n_n 8 rfl rfl).symm k) = ix2 p k := funext fun a => Fin.ext (by
    match a with
    | ⟨0, _⟩ => exact lhs_mm1_0 _ _
    | ⟨1, _⟩ => exact (lhs_mm1_1 _ _).trans hk)
  have er : dot_S512x8_S8x4096_S512x4096_1_0_0_1_n_n.rhsIdx (ix2 p n) ((contrEquiv1 dot_S512x8_S8x4096_S512x4096_1_0_0_1_n_n 8 rfl rfl).symm k) = ix2 k n := funext fun a => Fin.ext (by
    match a with
    | ⟨0, _⟩ => exact (rhs_mm1_0 _ _).trans hk
    | ⟨1, _⟩ => exact rhs_mm1_1 _ _)
  rw [el, er]

/-- The second product into a zero accumulator: entry (p, n) is the sum over the 4096 hidden features. -/
theorem mm2_apply (a : FVec Ideal S512x4096 .bf16) (b : FVec Ideal S4096x1024 .bf16) (p : Fin 512) (n : Fin 1024) :
    matmul dot_S512x4096_S4096x1024_S512x1024_1_0_0_1_n_n none a b (constant S512x1024 .f32 0x00000000#32) (ix2 p n)
      = ∑ k : Fin 4096, a (ix2 p k) * b (ix2 k n) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p n) ((contrEquiv1 dot_S512x4096_S4096x1024_S512x1024_1_0_0_1_n_n 4096 rfl rfl).symm k) = ix2 p k := funext fun a => Fin.ext (by
    match a with
    | ⟨0, _⟩ => exact lhs_mm2_0 _ _
    | ⟨1, _⟩ => exact (lhs_mm2_1 _ _).trans hk)
  have er : dot_S512x4096_S4096x1024_S512x1024_1_0_0_1_n_n.rhsIdx (ix2 p n) ((contrEquiv1 dot_S512x4096_S4096x1024_S512x1024_1_0_0_1_n_n 4096 rfl rfl).symm k) = ix2 k n := funext fun a => Fin.ext (by
    match a with
    | ⟨0, _⟩ => exact (rhs_mm2_0 _ _).trans hk
    | ⟨1, _⟩ => exact rhs_mm2_1 _ _)
  rw [el, er]

/-! ## The body's one stored value -/

/-- The stored value as one composed term of the four loaded values. -/
theorem pay_eq {F : FTy → Type} [FloatOps F] (v0 : Vec F S512x8 .f32) (v2 : Vec F S1x8 .f32) (v8 : Vec F S8x4096 .bf16) (v14 : Vec F S4096x1024 .bf16) :
    k0_pay1 v0 v2 v8 v14
      = matmul dot_S512x4096_S4096x1024_S512x1024_1_0_0_1_n_n none
          (truncf .bf16 (maximumf
            (matmul dot_S512x8_S8x4096_S512x4096_1_0_0_1_n_n none
              (truncf .bf16 (cos (addf (shapeCast S512x8 v0 shapeCasts_S512x8_S512x8)
                (broadcastTo S512x8 (shapeCast S1x8 v2 shapeCasts_S1x8_S1x8) broadcasts_S1x8_S512x8))) bitsLt_bf16_f32)
              (shapeCast S8x4096 v8 shapeCasts_S8x4096_S8x4096) (constant S512x4096 .f32 0x00000000#32))
            (broadcast S512x4096 (Scalar.ofBits .f32 0x00000000#32))) bitsLt_bf16_f32)
          (shapeCast S4096x1024 v14 shapeCasts_S4096x1024_S4096x1024) (constant S512x1024 .f32 0x00000000#32) := rfl

/-- Row `p`, wire `k` of the shifted cosines: the row's feature plus the phase, through the cosine. The one row of
    phases is copied to all 512 rows. -/
theorem cosines_apply (v0 : Vec Ideal S512x8 .f32) (v2 : Vec Ideal S1x8 .f32) (p : Fin 512) (k : Fin 8) :
    (cos (addf (shapeCast S512x8 v0 shapeCasts_S512x8_S512x8)
        (broadcastTo S512x8 (shapeCast S1x8 v2 shapeCasts_S1x8_S1x8) broadcasts_S1x8_S512x8)) : FVec Ideal S512x8 .f32) (ix2 p k)
      = Ideal.cos (v0 (ix2 p k) + v2 (ix2 0 k)) := by
  rw [shapeCast_self, shapeCast_self]
  have hb : broadcastTo S512x8 v2 broadcasts_S1x8_S512x8 (ix2 p k) = v2 (ix2 0 k) :=
    broadcastTo_apply v2 broadcasts_S1x8_S512x8 (ix2 p k) (ix2 0 k) (fun a => by
      match a with
      | ⟨0, _⟩ => rfl
      | ⟨1, _⟩ => rfl)
  show Ideal.cos (v0 (ix2 p k) + broadcastTo S512x8 v2 broadcasts_S1x8_S512x8 (ix2 p k)) = _
  rw [hb]

/-- Entry (p, n) of the stored block. -/
theorem payload_apply (v0 : Vec Ideal S512x8 .f32) (v2 : Vec Ideal S1x8 .f32) (v8 : Vec Ideal S8x4096 .bf16) (v14 : Vec Ideal S4096x1024 .bf16)
    (p : Fin 512) (n : Fin 1024) :
    k0_pay1 (F := Ideal) v0 v2 v8 v14 (ix2 p n)
      = ∑ f : Fin 4096, max (∑ k : Fin 8, Ideal.cos (v0 (ix2 p k) + v2 (ix2 0 k)) * v8 (ix2 k f)) (Ideal.ofBits .f32 0x00000000#32)
          * v14 (ix2 f n) := by
  rw [pay_eq, mm2_apply]
  refine Finset.sum_congr rfl fun f _ => ?_
  rw [truncf_apply, maximumf_apply, mm1_apply, broadcast_apply]
  have hs : (∑ k : Fin 8, (truncf .bf16 (cos (addf (shapeCast S512x8 v0 shapeCasts_S512x8_S512x8)
        (broadcastTo S512x8 (shapeCast S1x8 v2 shapeCasts_S1x8_S1x8) broadcasts_S1x8_S512x8))) bitsLt_bf16_f32 : FVec Ideal S512x8 .bf16) (ix2 p k)
        * (shapeCast S8x4096 v8 shapeCasts_S8x4096_S8x4096) (ix2 k f))
      = ∑ k : Fin 8, Ideal.cos (v0 (ix2 p k) + v2 (ix2 0 k)) * v8 (ix2 k f) :=
    Finset.sum_congr rfl fun k _ => by
      rw [truncf_apply, cosines_apply, shapeCast_self]
  rw [hs, shapeCast_self]
  rfl

end Cert.KernelIdeal.Body

end
-- ==== Proof.KernelBlock.lean ====
/-
  The block a grid point stores, entry by entry, as the specification's sum at one token.

  The body reads the first eight columns of its 512 × 1024 block of token rows, and the phases and both weight matrices
  whole. Suppose row `p` of the block is token (b, s), column `q` of the block is output feature `d`, and the
  loaded phases and weights are the arguments' (the narrowing of the weights to the shorter float format is the identity
  on the extended reals). Then entry (p, q) of the stored block is the specification's value at (b, s, d).
-/
import proofs.«177925_j65481071400550_1_alg».proof.Proof.Gen.KernelIdeal.Frame
import proofs.«177925_j65481071400550_1_alg».proof.Proof.KernelPayload
import proofs.«177925_j65481071400550_1_alg».proof.Proof.Spec

noncomputable section

namespace Cert.KernelIdeal.Body

open Cert.KernelIdeal Cert.KernelIdeal.Gen Idealize.ShloMosaic Idealize.ShloMosaic.ValueIdx
open scoped BigOperators

/-- Both coordinates of a block's origin are zero. -/
theorem origin_zero : (![0, 0] : Fin 2 → Nat) = fun _ => 0 := funext fun a => by fin_cases a <;> rfl

/-- Column `k` of the eight loaded columns is column `k` of the block. -/
theorem first_columns (X0 : Vec Ideal S512x1024 .f32) (p : Fin 512) (k : Fin 8) :
    View.ld X0 r0_0 (ix2 p k) = X0 (ix2 p (Cert.Spec.wire k)) :=
  congrArg X0 (funext fun a => Fin.ext (by
    match a with
    | ⟨0, _⟩ => show 0 + 1 * p.val = p.val; omega
    | ⟨1, _⟩ => show 0 + 1 * k.val = k.val; omega))

/-- Entry (p, q) of the buffer the body leaves is the specification's sum at token (b, s) and output feature `d`, given
    what the four loaded blocks hold there. -/
theorem stored_eq (X0 : Vec Ideal S512x1024 .f32) (X1 : Vec Ideal S1x8 .f32) (X2 : Vec Ideal S8x4096 .bf16) (X3 : Vec Ideal S4096x1024 .bf16)
    (a0 : FVec Ideal Cert.Spec.Tokens .f32) (a1 : FVec Ideal Cert.Spec.Phases .f32) (a2 : FVec Ideal Cert.Spec.Mix1 .f32) (a3 : FVec Ideal Cert.Spec.Mix2 .f32)
    (b : Fin 4) (s : Fin 2048) (d : Fin 1024) (p : Fin 512) (q : Fin 1024)
    (h0 : ∀ k : Fin 8, X0 (ix2 p (Cert.Spec.wire k)) = a0 (ix3 b s (Cert.Spec.wire k)))
    (h1 : ∀ k : Fin 8, X1 (ix2 0 k) = a1 (ix1 k))
    (h2 : ∀ (k : Fin 8) (f : Fin 4096), X2 (ix2 k f) = a2 (ix2 k f))
    (h3 : ∀ f : Fin 4096, X3 (ix2 f q) = a3 (ix2 f d)) :
    out0_4 X0 X1 X2 X3 (ix2 p q) = ∑ f : Fin 4096, Cert.Spec.hidden a0 a1 a2 b s f * a3 (ix2 f d) := by
  unfold out0_4
  rw [View.canon_unit_zero origin_zero]
  refine (payload_apply (View.ld X0 r0_0) (View.ld X1 r0_1) (View.ld X2 r0_2) (View.ld X3 r0_3) p q).trans ?_
  refine Finset.sum_congr rfl fun f _ => ?_
  have e3 : View.ld X3 r0_3 (ix2 f q) = a3 (ix2 f d) := by
    rw [View.ld_unit_zero (S := S4096x1024) origin_zero]; exact h3 f
  have es : (∑ k : Fin 8, Ideal.cos (View.ld X0 r0_0 (ix2 p k) + View.ld X1 r0_1 (ix2 0 k)) * View.ld X2 r0_2 (ix2 k f))
      = ∑ k : Fin 8, Ideal.cos (a0 (ix3 b s (Cert.Spec.wire k)) + a1 (ix1 k)) * a2 (ix2 k f) :=
    Finset.sum_congr rfl fun k _ => by
      rw [first_columns, h0 k, View.ld_unit_zero (S := S1x8) origin_zero, h1 k,
        View.ld_unit_zero (S := S8x4096) origin_zero, h2 k f]
  rw [es, e3]
  rfl

end Cert.KernelIdeal.Body

end
-- ==== Proof.KernelValue.lean ====
/-
  The kernel's run, read: its result array ends at the specification of its four arguments.

  The grid has 16 points; point `t` is handed rows 512 t … 512 t + 511 of the tokens laid out as 8192 rows, the phases
  as one row, and both weight matrices whole, and writes back rows 512 t … 512 t + 511 of the result. Row r of the
  flattened tokens is token (r / 2048, r % 2048), because the rows are the input array reshaped; the phases' row is the
  phase vector reshaped; the weights are the arguments narrowed to the shorter float format, which is the identity on
  the extended reals. So what point `t` writes back is block `t` of the specification over rows, the 16 blocks cover the
  8192 rows, and the reshape after the region turns rows back into tokens.
-/
import proofs.«177925_j65481071400550_1_alg».proof.Proof.Gen.KernelIdeal.Frame
import proofs.«177925_j65481071400550_1_alg».proof.Proof.KernelBlock
import proofs.«177925_j65481071400550_1_alg».proof.Proof.Spec
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The arrays the region finds -/

/-- The token rows: the input array reshaped to 8192 rows. -/
theorem rows_entry (c : Dev nD) :
    (V m c main_v0 : S8192x1024.Idx → Elt Ideal .f32) = shapeCast S8192x1024 (m ((c : Thread nD τ).loc main_arg0)) shapeCasts_S4x2048x1024_S8192x1024 := by
  show StableHlo.after hostOps0 (fun b => m (c, b)) (Proc.devRef .tc main_v0) = _
  after_results
  rfl

/-- The phases as one row. -/
theorem phases_entry (c : Dev nD) :
    (V m c main_v1 : S1x8.Idx → Elt Ideal .f32) = shapeCast S1x8 (m ((c : Thread nD τ).loc main_arg1)) shapeCasts_S8_S1x8 := by
  show StableHlo.after hostOps0 (fun b => m (c, b)) (Proc.devRef .tc main_v1) = _
  after_results
  rfl

/-- The first weight matrix, narrowed. -/
theorem mix1_entry (c : Dev nD) :
    (V m c main_v2 : S8x4096.Idx → Elt Ideal .bf16) = (truncf .bf16 ((m ((c : Thread nD τ).loc main_arg2)) : FVec Ideal S8x4096 .f32) bitsLt_bf16_f32 : FVec Ideal S8x4096 .bf16) := by
  show StableHlo.after hostOps0 (fun b => m (c, b)) (Proc.devRef .tc main_v2) = _
  after_results

/-- The second weight matrix, narrowed. -/
theorem mix2_entry (c : Dev nD) :
    (V m c main_v3 : S4096x1024.Idx → Elt Ideal .bf16) = (truncf .bf16 ((m ((c : Thread nD τ).loc main_arg3)) : FVec Ideal S4096x1024 .f32) bitsLt_bf16_f32 : FVec Ideal S4096x1024 .bf16) := by
  show StableHlo.after hostOps0 (fun b => m (c, b)) (Proc.devRef .tc main_v3) = _
  after_results

/-! ## The blocks -/

/-- The index maps over the grid: the token rows and the result move one block of rows per point; the phases and the
    weights stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The array the result ends at: the specification over rows, of the four arguments. -/
abbrev result (c : Dev nD) : S8192x1024.Idx → Elt Ideal .f32 :=
  Cert.Spec.outRows (m ((c : Thread nD τ).loc main_arg0)) (m ((c : Thread nD τ).loc main_arg1)) (m ((c : Thread nD τ).loc main_arg2)) (m ((c : Thread nD τ).loc main_arg3))

/-- The specification over rows at row `r`, column `d`. -/
theorem outRows_at (x : FVec Ideal Cert.Spec.Tokens .f32) (θ : FVec Ideal Cert.Spec.Phases .f32) (w1 : FVec Ideal Cert.Spec.Mix1 .f32)
    (w2 : FVec Ideal Cert.Spec.Mix2 .f32) (r : Fin 8192) (d : Fin 1024) :
    Cert.Spec.outRows x θ w1 w2 (ix2 r d)
      = ∑ f : Fin 4096, Cert.Spec.hidden x θ w1 (Cert.Spec.rowBatch r) (Cert.Spec.rowPos r) f * w2 (ix2 f d) := rfl

/-- Row `p` of point `t`'s block of token rows, at one of the first eight columns, is the token's feature. -/
theorem rows_block (c : Dev nD) (t : Fin cfg0.N) (p : Fin 512) (k : Fin 8) (r : Fin 8192) (hr : r.val = t.val * 512 + p.val) :
    (iblk m c 0 t : Vec Ideal S512x1024 .f32) (ix2 p (Cert.Spec.wire k))
      = (m ((c : Thread nD τ).loc main_arg0)) (ix3 (Cert.Spec.rowBatch r) (Cert.Spec.rowPos r) (Cert.Spec.wire k)) := by
  obtain ⟨e00, e01, -⟩ := idx_facts t
  have hemb : ((cfg0.win 0).blk t).view.emb (ix2 p (Cert.Spec.wire k)) = ix2 r (Cert.Spec.wire k) :=
    funext fun a => Fin.ext (by
      match a with
      | ⟨0, _⟩ => show win0_0.index t (0 : Fin 2) * 512 + 1 * p.val = r.val; omega
      | ⟨1, _⟩ => show win0_0.index t (1 : Fin 2) * 1024 + 1 * k.val = k.val; omega)
  show V m c main_v0 (((cfg0.win 0).blk t).view.emb (ix2 p (Cert.Spec.wire k))) = _
  rw [hemb, rows_entry]
  exact shapeCast_apply (s := S4x2048x1024) (t := S8192x1024) (m ((c : Thread nD τ).loc main_arg0)) shapeCasts_S4x2048x1024_S8192x1024
    (ix2 r (Cert.Spec.wire k)) (ix3 (Cert.Spec.rowBatch r) (Cert.Spec.rowPos r) (Cert.Spec.wire k)) (by
      rw [Shape.rowMajor_val_three, Shape.rowMajor_val_two]
      show (r.val / 2048 * 2048 + r.val % 2048) * 1024 + k.val = r.val * 1024 + k.val
      omega)

/-- The phases' block is the phase vector. -/
theorem phases_block (c : Dev nD) (t : Fin cfg0.N) (k : Fin 8) :
    (iblk m c 1 t : Vec Ideal S1x8 .f32) (ix2 0 k) = (m ((c : Thread nD τ).loc main_arg1)) (ix1 k) := by
  obtain ⟨-, -, e10, e11, -⟩ := idx_facts t
  have hemb : ((cfg0.win 1).blk t).view.emb (ix2 0 k) = ix2 0 k :=
    funext fun a => Fin.ext (by
      match a with
      | ⟨0, _⟩ => show win0_1.index t (0 : Fin 2) * 1 + 1 * 0 = 0; omega
      | ⟨1, _⟩ => show win0_1.index t (1 : Fin 2) * 8 + 1 * k.val = k.val; omega)
  show V m c main_v1 (((cfg0.win 1).blk t).view.emb (ix2 0 k)) = _
  rw [hemb, phases_entry]
  exact shapeCast_apply (s := S8) (t := S1x8) (m ((c : Thread nD τ).loc main_arg1)) shapeCasts_S8_S1x8 (ix2 0 k) (ix1 k) (by
      rw [Shape.rowMajor_val_one, Shape.rowMajor_val_two]
      show k.val = 0 * 8 + k.val
      omega)

/-- The first weight matrix's block is the argument. -/
theorem mix1_block (c : Dev nD) (t : Fin cfg0.N) (k : Fin 8) (f : Fin 4096) :
    (iblk m c 2 t : Vec Ideal S8x4096 .bf16) (ix2 k f) = (m ((c : Thread nD τ).loc main_arg2)) (ix2 k f) := by
  obtain ⟨-, -, -, -, e20, e21, -⟩ := idx_facts t
  show V m c main_v2 (((cfg0.win 2).blk t).view.emb (ix2 k f)) = _
  rw [mix1_entry]
  show (m ((c : Thread nD τ).loc main_arg2)) (((cfg0.win 2).blk t).view.emb (ix2 k f)) = _
  congr 1
  funext a; apply Fin.ext
  match a with
  | ⟨0, _⟩ => show win0_2.index t (0 : Fin 2) * 8 + 1 * k.val = k.val; omega
  | ⟨1, _⟩ => show win0_2.index t (1 : Fin 2) * 4096 + 1 * f.val = f.val; omega

/-- The second weight matrix's block is the argument. -/
theorem mix2_block (c : Dev nD) (t : Fin cfg0.N) (f : Fin 4096) (d : Fin 1024) :
    (iblk m c 3 t : Vec Ideal S4096x1024 .bf16) (ix2 f d) = (m ((c : Thread nD τ).loc main_arg3)) (ix2 f d) := by
  obtain ⟨-, -, -, -, -, -, e30, e31, -⟩ := idx_facts t
  show V m c main_v3 (((cfg0.win 3).blk t).view.emb (ix2 f d)) = _
  rw [mix2_entry]
  show (m ((c : Thread nD τ).loc main_arg3)) (((cfg0.win 3).blk t).view.emb (ix2 f d)) = _
  congr 1
  funext a; apply Fin.ext
  match a with
  | ⟨0, _⟩ => show win0_3.index t (0 : Fin 2) * 4096 + 1 * f.val = f.val; omega
  | ⟨1, _⟩ => show win0_3.index t (1 : Fin 2) * 1024 + 1 * d.val = d.val; omega

/-! ## What a point writes back, and the array after the run -/

/-- Point `t` writes back block `t` of the specification over rows. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  obtain ⟨-, -, -, -, -, -, -, -, e40, e41⟩ := idx_facts t
  have ht : t.val < 16 := by have h := t.isLt; have hN : cfg0.N = 16 := N_0; omega
  funext j
  obtain ⟨p, q, rfl⟩ : ∃ (p : Fin 512) (q : Fin 1024), j = ix2 p q := ⟨j 0, j 1, eq_ix2 j⟩
  have hp : p.val < 512 := p.isLt
  have hemb : ((cfg0.win 4).blk t).view.emb (ix2 p q) = ix2 (⟨t.val * 512 + p.val, by omega⟩ : Fin 8192) q :=
    funext fun a => Fin.ext (by
      match a with
      | ⟨0, _⟩ => show win0_4.index t (0 : Fin 2) * 512 + 1 * p.val = t.val * 512 + p.val; omega
      | ⟨1, _⟩ => show win0_4.index t (1 : Fin 2) * 1024 + 1 * q.val = q.val; omega)
  show out0_4 (iblk m c 0 t) (iblk m c 1 t) (iblk m c 2 t) (iblk m c 3 t) (ix2 p q) = result m c (((cfg0.win 4).blk t).view.emb (ix2 p q))
  rw [hemb]
  exact (Body.stored_eq (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3))
    (Cert.Spec.rowBatch (⟨t.val * 512 + p.val, by omega⟩ : Fin 8192)) (Cert.Spec.rowPos (⟨t.val * 512 + p.val, by omega⟩ : Fin 8192)) q p q
    (fun k => rows_block m c t p k (⟨t.val * 512 + p.val, by omega⟩ : Fin 8192) rfl)
    (fun k => phases_block m c t k)
    (fun k f => mix1_block m c t k f)
    (fun f => mix2_block m c t f q)).trans
    (outRows_at (m ((c : Thread nD τ).loc main_arg0)) (m ((c : Thread nD τ).loc main_arg1)) (m ((c : Thread nD τ).loc main_arg2)) (m ((c : Thread nD τ).loc main_arg3)) (⟨t.val * 512 + p.val, by omega⟩ : Fin 8192) q).symm

/-- An index of the result's rows is in point `t`'s block iff each coordinate is in the block's range on its axis. -/
theorem mem_blk (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4).slice (win0_4.rect t)).set ↔ _
  rw [View.set_slice_whole, Rect.mem_set_unit]
  exact Iff.rfl

/-- Row r lies in the block of point r / 512. -/
theorem cover (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 512, by rw [show cfg0.N = 16 from N_0]; omega⟩
  obtain ⟨-, -, -, -, -, -, -, -, e40, e41⟩ := idx_facts t
  have htv : t.val = (i 0).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The result's rows after the run. -/
theorem final (c : Dev nD) : (dats m 0 c).arrAt 4 cfg0.N = result m c :=
  (dats m 0 c).arrAt_eq_of_cover 4 (result m c) (fun t _ => flushed_eq m c t) cover

/-! ## The reshape after the region, and the run -/

/-- The result buffer: the rows reshaped back to batch × position × feature is the specification. -/
theorem tail_eq (c : Dev nD) :
    Pipeline.afterTail₀ cfgs (dats m) 0 (V0 m) [hostOps1] c main_v5
      = Cert.Spec.out (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v5) = _
  after_results
  have hA : Pipeline.withArrays spec0 c (V0 m c) (fun w => (dats m 0 c).arrAt w cfg0.N) (Proc.devRef .tc main_v4) = result m c :=
    (Pipeline.withArrays_arr spec0 launch0.win.arr_inj c (V0 m c) (fun w => (dats m 0 c).arrAt w cfg0.N) 4).trans (final m c)
  funext i
  show shapeCast S4x2048x1024 (Pipeline.withArrays spec0 c (V0 m c) (fun w => (dats m 0 c).arrAt w cfg0.N) (Proc.devRef .tc main_v4))
    shapeCasts_S8192x1024_S4x2048x1024 i = _
  rw [hA]
  have hi0 : (i 0).val < 4 := (i 0).isLt
  have hi1 : (i 1).val < 2048 := (i 1).isLt
  exact (shapeCast_apply (s := S8192x1024) (t := S4x2048x1024) (result m c) shapeCasts_S8192x1024_S4x2048x1024 i
      (ix2 (⟨(i 0).val * 2048 + (i 1).val, by omega⟩ : Fin 8192) (i 2)) (by
        rw [Shape.rowMajor_val_two, Shape.rowMajor_val_three]
        show ((i 0).val * 2048 + (i 1).val) * 1024 + (i 2).val = ((i 0).val * 2048 + (i 1).val) * 1024 + (i 2).val
        rfl)).trans
    (Cert.Spec.outRows_apply (m ((c : Thread nD τ).loc main_arg0)) (m ((c : Thread nD τ).loc main_arg1)) (m ((c : Thread nD τ).loc main_arg2)) (m ((c : Thread nD τ).loc main_arg3)) i ⟨(i 0).val * 2048 + (i 1).val, by omega⟩ rfl)

/-- The run, read: the result at the specification of the arguments, the arguments unchanged. -/
theorem run : θ_run defs (onTc (τ := τ) (main (F := Ideal))) ⟨m, fun _ => 0, ρ⟩ fun r => ∀ c : Dev nD,
      r.2.mem ((c.tc : Thread nD τ).loc main_v5) = Cert.Spec.out (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.lean ====
/-
  The kernel and its reference are one function of their four arguments on the extended reals.

  Both compute, for every token (b, s) and output feature d,

      ∑ f, max (∑ k, cos (x (b, s, k) + θ k) · w₁ (k, f)) 0 · w₂ (f, d)

  (Proof/Spec.lean). The reference does so over the whole batch × position × feature array with two contractions
  (Proof/RefValue.lean, over its generated run read one operation at a time). The kernel lays the tokens out as 8192 rows,
  hands 512 rows to each of 16 grid points, forms both products per block in a shorter float format (the identity on the
  extended reals) into zero accumulators, and reshapes the rows back (Proof/KernelPayload.lean, the stored value at an
  entry; Proof/KernelBlock.lean, the stored block as the specification at one token; Proof/KernelValue.lean, the blocks
  as rows of the argument, the write-backs covering the result, the reshape after the region). No law beyond the
  commutative-monoid structure of the sums is used, so the precondition is never opened. The two kernel programs' frames
  are the generated ones; the reference's frame is its generated run with the result dropped; the idealization rewrote
  nothing, so there is nothing to preserve.
-/
import proofs.«177925_j65481071400550_1_alg».proof.Defs
import proofs.«177925_j65481071400550_1_alg».proof.Proof.Gen.Kernel
import proofs.«177925_j65481071400550_1_alg».proof.Proof.Gen.Kernel.Skeleton
import proofs.«177925_j65481071400550_1_alg».proof.Proof.Gen.Kernel.Launch
import proofs.«177925_j65481071400550_1_alg».proof.Proof.Gen.Kernel.Points
import proofs.«177925_j65481071400550_1_alg».proof.Proof.Gen.Kernel.Frame
import proofs.«177925_j65481071400550_1_alg».proof.Proof.Gen.KernelIdeal
import proofs.«177925_j65481071400550_1_alg».proof.Proof.Gen.KernelIdeal.Skeleton
import proofs.«177925_j65481071400550_1_alg».proof.Proof.Gen.KernelIdeal.Launch
import proofs.«177925_j65481071400550_1_alg».proof.Proof.Gen.KernelIdeal.Points
import proofs.«177925_j65481071400550_1_alg».proof.Proof.Gen.KernelIdeal.Frame
import proofs.«177925_j65481071400550_1_alg».proof.Proof.Gen.ReferenceIdeal
import proofs.«177925_j65481071400550_1_alg».proof.Proof.Gen.ReferenceIdeal.Run
import proofs.«177925_j65481071400550_1_alg».proof.Proof.Gen.ReferenceIdeal.Read
import proofs.«177925_j65481071400550_1_alg».proof.Proof.Gen.Pre_finite_inputs
import proofs.«177925_j65481071400550_1_alg».proof.Proof.RefValue
import proofs.«177925_j65481071400550_1_alg».proof.Proof.KernelValue
import Idealize.ShloMosaic.Adequacy
import Idealize.ShloMosaic.Init

noncomputable section

namespace Cert.Proof

open Idealize.ShloMosaic Idealize.SL.Sem

/-- The printed kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result ends at the specification of its arguments and the
    reference's at the specification of its own, which are the same arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
